-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x4096x4096 .f32) (main_arg1 : FVec F S4096x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x4096x4096 : Shape := ⟨3, ![4, 4096, 4096]⟩
abbrev S4096x4096 : Shape := ⟨2, ![4096, 4096]⟩
abbrev S16384x4096 : Shape := ⟨2, ![16384, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S16384x4096, .f32⟩
  | .hbm, ⟨3, _⟩ => ⟨S16384x4096, .f32⟩
  | .hbm, ⟨4, _⟩ => ⟨S4x4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x4096x4096_S16384x4096 : S4x4096x4096.ShapeCasts S16384x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S16384x4096_S4x4096x4096 : S16384x4096.ShapeCasts S4x4096x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .f32 = 32 ∨ (Rect.block (s := S16384x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4x4096x4096_S4096x4096_S4x4096x4096_2_1_01_0_n_n_wf : DotDims.WF S4x4096x4096 S4096x4096 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf

class Facts : Prop extends Facts₀ where

variable [Facts]
-- ==== Proof.Pieces.lean ====
/-
  What one grid point of the blocked product leaves behind, read back as values.

  The body keeps a running block in a scratch buffer. At a point that opens a run along the contracted axis it first
  stores the zero block, and at every point it then stores `acc + a · bᵀ` over what the scratch held — the zero
  block it has just stored, or what the point before left. At a point that closes a run it also copies the scratch,
  after that store, into the output block. So in every case the scratch ends at the one update term of the point's
  two input blocks and the incoming accumulator, and at a closing point the output block ends at the same term.
-/
import proofs.«172653_j21577915695486_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The block a run opens with: every entry the zero word. -/
abbrev zeroBlock : Vec F S1024x1024 .f32 := k0_pay1 (F := F)

/-- One update: the accumulator plus the product of the left block with the transpose of the right block. -/
abbrev update (a b acc : Vec F S1024x1024 .f32) : Vec F S1024x1024 .f32 := k0_pay2 a b acc

/-- An opening point (not closing): the scratch ends at the update of the zero block. -/
theorem scratch_open (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (a b : Vec F S1024x1024 .f32) :
    sout0_A_0 c i a3 h3 a4 h4 a5 h5 a6 h6 hc0 hc1 a b = update a b zeroBlock := by
  unfold sout0_A_0
  rw [View.read_writes_eq_canon _ _ _ (scover0_A_0 c i a3 h3 a4 h4 a5 h5 a6 h6 hc0 hc1 a b)]
  unfold kernelRun0_A
  dsimp only
  sl_unfold_words
  rw [View.canon_cons_unit_zero (S := S1024x1024) hz]
  simp only [View.readAt_eq_ld, h3.read_unread, h4.read_unread, View.readCov_unit_zero (S := S1024x1024) _ hz,
    View.ld_unit_zero (S := S1024x1024) hz]

/-- A middle point: the scratch ends at the update of what the point before left. -/
theorem scratch_mid (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (a b acc : Vec F S1024x1024 .f32) :
    sout0_B_0 c i a3 h3 a4 h4 a5 h5 a6 h6 hc0 hc1 a b acc = update a b acc := by
  unfold sout0_B_0
  rw [View.read_writes_eq_canon _ _ _ (scover0_B_0 c i a3 h3 a4 h4 a5 h5 a6 h6 hc0 hc1 a b acc)]
  unfold kernelRun0_B
  dsimp only
  sl_unfold_words
  rw [View.canon_unit_zero hz]
  simp only [View.readAt_eq_ld, h3.read_unread, h4.read_unread, h6.read_unread, View.ld_unit_zero (S := S1024x1024) hz]

/-- A closing point: the scratch ends at the update of what the point before left, -/
theorem scratch_close (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (a b acc : Vec F S1024x1024 .f32) :
    sout0_C_0 c i a3 h3 a4 h4 a5 h5 a6 h6 hc0 hc1 a b acc = update a b acc := by
  unfold sout0_C_0
  rw [View.read_writes_eq_canon _ _ _ (scover0_C_0 c i a3 h3 a4 h4 a5 h5 a6 h6 hc0 hc1 a b acc)]
  unfold kernelRun0_C
  dsimp only
  sl_unfold_words
  rw [View.canon_unit_zero hz]
  simp only [View.readAt_eq_ld, h3.read_unread, h4.read_unread, h6.read_unread, View.ld_unit_zero (S := S1024x1024) hz]

/-- and the output block, copied from the scratch after that store, ends at the same term. -/
theorem out_close (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (a b acc : Vec F S1024x1024 .f32) :
    out0_C_2 c i a3 h3 a4 h4 a5 h5 a6 h6 hc0 hc1 a b acc = update a b acc := by
  unfold out0_C_2
  rw [View.read_writes_eq_canon _ _ _ (cover0_C_2 c i a3 h3 a4 h4 a5 h5 a6 h6 hc0 hc1 a b acc)]
  unfold kernelRun0_C
  dsimp only
  sl_unfold_words
  rw [View.canon_unit_zero hz]
  simp only [View.readAt_eq_ld, h3.read_unread, h4.read_unread, h6.read_unread, View.readCov_unit_zero (S := S1024x1024) _ hz,
    View.ld_unit_zero (S := S1024x1024) hz]

end Cert.KernelIdeal.Pieces

end
-- ==== Proof.LibPartialDot.lean ====
/-
  The product of an `R × C` array with the TRANSPOSE of an `N × C` array — entry `(r, e)` is the sum over the
  shared last axis `d` of `x[r, d] · w[e, d]` — built up along `d` in consecutive stretches, over the extended reals.

  `dotUpTo x w n r e` is the part of that sum with `d < n`. It starts at zero, a further stretch of `k` columns adds
  its own `k` products (`dotUpTo_add`: a sum over a range splits at any point, and addition of extended reals is
  associative, so no finiteness is needed), and at `n = C` it is the whole entry (`dotUpTo_full`). Coordinates are
  natural numbers, an entry outside the array reading zero, so that the arithmetic of block offsets is plain
  arithmetic of naturals.
-/
import Idealize.ShloMosaic.PureOps.Ideal.Laws
import Idealize.ShloMosaic.Lib.ValueIdx

noncomputable section

open scoped BigOperators

namespace Cert.Accum

open Idealize.ShloMosaic Idealize.ShloMosaic.ValueIdx

variable {R N C : ℕ}

/-- An entry of a rank-2 array at natural-number coordinates; zero outside the array. -/
def rd (x : (⟨2, ![R, C]⟩ : Shape).Idx → EReal) (r d : ℕ) : EReal :=
  if h : r < R ∧ d < C then x (ix2 ⟨r, h.1⟩ ⟨d, h.2⟩) else 0

/-- Inside the array it is the entry. -/
theorem rd_of_lt (x : (⟨2, ![R, C]⟩ : Shape).Idx → EReal) {r d : ℕ} (hr : r < R) (hd : d < C) :
    rd x r d = x (ix2 ⟨r, hr⟩ ⟨d, hd⟩) := dif_pos ⟨hr, hd⟩

/-- The entry `(r, e)` of `x · wᵀ` restricted to the columns `d < n`. -/
def dotUpTo (x : (⟨2, ![R, C]⟩ : Shape).Idx → EReal) (w : (⟨2, ![N, C]⟩ : Shape).Idx → EReal) (n r e : ℕ) : EReal :=
  ∑ d ∈ Finset.range n, rd x r d * rd w e d

/-- No columns: zero. -/
theorem dotUpTo_zero (x : (⟨2, ![R, C]⟩ : Shape).Idx → EReal) (w : (⟨2, ![N, C]⟩ : Shape).Idx → EReal) (r e : ℕ) :
    dotUpTo x w 0 r e = 0 := Finset.sum_range_zero _

/-- A further stretch of `k` columns adds its `k` products. -/
theorem dotUpTo_add (x : (⟨2, ![R, C]⟩ : Shape).Idx → EReal) (w : (⟨2, ![N, C]⟩ : Shape).Idx → EReal) (n k r e : ℕ) :
    dotUpTo x w (n + k) r e = dotUpTo x w n r e + ∑ d : Fin k, rd x r (n + d.val) * rd w e (n + d.val) := by
  unfold dotUpTo
  rw [Finset.sum_range_add]
  exact congrArg (_ + ·) (Finset.sum_range fun d => rd x r (n + d) * rd w e (n + d))

/-- One step of the accumulation in stretches of `k` columns: a value that is the product up to stretch `n`, plus
    stretch `n`'s products, is the product up to stretch `n + 1`. -/
theorem dotUpTo_step (x : (⟨2, ![R, C]⟩ : Shape).Idx → EReal) (w : (⟨2, ![N, C]⟩ : Shape).Idx → EReal) (k n r e : ℕ)
    (s : EReal) (blk : Fin k → EReal) (hs : s = dotUpTo x w (k * n) r e)
    (hb : ∀ d : Fin k, blk d = rd x r (k * n + d.val) * rd w e (k * n + d.val)) :
    s + ∑ d : Fin k, blk d = dotUpTo x w (k * (n + 1)) r e := by
  rw [Nat.mul_succ, dotUpTo_add, hs]
  exact congrArg (dotUpTo x w (k * n) r e + ·) (Finset.sum_congr rfl fun d _ => hb d)

/-- All `C` columns: the whole entry of `x · wᵀ`. -/
theorem dotUpTo_full (x : (⟨2, ![R, C]⟩ : Shape).Idx → EReal) (w : (⟨2, ![N, C]⟩ : Shape).Idx → EReal) {r e : ℕ}
    (hr : r < R) (he : e < N) :
    dotUpTo x w C r e = ∑ d : Fin C, x (ix2 ⟨r, hr⟩ d) * w (ix2 ⟨e, he⟩ d) := by
  unfold dotUpTo
  rw [Finset.sum_range]
  exact Finset.sum_congr rfl fun d _ => by rw [rd_of_lt x hr d.isLt, rd_of_lt w he d.isLt]

end Cert.Accum

end
-- ==== Proof.LibTransposedMatmul.lean ====
/-
  A matrix product that contracts BOTH operands on their last axis — an `M × K` array against an `N × K` array,
  the result `M × N` — read at one entry, at the ideal instance (floats are extended reals).

  Into a zero accumulator the entry `(r, c)` is the sum over `k` of `x[r, k] · w[c, k]`: the product of `x` with the
  transpose of `w`, without any transpose being formed. The dimension numbers contract axis 1 of each operand, the
  result's row is the left operand's row and the result's column is the right operand's ROW; re-indexing the
  one-axis contraction by its single coordinate gives the textbook sum.
-/
import Idealize.ShloMosaic.PureOps.Ideal.Laws
import Idealize.ShloMosaic.Lib.ValueIdx
import Idealize.ShloMosaic.Lib.Pipeline.Value

noncomputable section

open scoped BigOperators

namespace Cert.MatT

open Idealize.ShloMosaic Idealize.ShloMosaic.ValueIdx

/-- The left operand's row coordinate is the result's row coordinate. -/
theorem transposedRhs_lhs_row (M K N : Nat) (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's ROW coordinate is the result's column coordinate. -/
theorem transposedRhs_rhs_row (M K N : Nat) (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- A product contracting both operands' last axes, into a zero accumulator, read at an entry: the sum over the
    contracted index of the products of the two ROWS' entries. -/
theorem transposedRhs_matmul_apply {φ₁ φ₂ : FTy} (M K N : Nat) (prec : Option ContractPrecision)
    (x : FVec Ideal ⟨2, ![M, K]⟩ φ₁) (w : FVec Ideal ⟨2, ![N, K]⟩ φ₂) (j : (⟨2, ![M, N]⟩ : Shape).Idx) :
    FloatOps.matmul (DotDims.transposedRhs M K N) prec x w (constant ⟨2, ![M, N]⟩ .f32 0x00000000#32) j
      = ∑ k : Fin K, x (ix2 (j 0) k) * w (ix2 (j 1) k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact transposedRhs_lhs_row M K N _ _
      | ⟨1, _⟩ => exact ((DotDims.transposedRhs M K N).lhsIdx_val_of_single rfl _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact transposedRhs_rhs_row M K N _ _
      | ⟨1, _⟩ => exact ((DotDims.transposedRhs M K N).rhsIdx_val_of_single rfl _ _).trans hk)
  rw [el, er]
  rfl

end Cert.MatT

end
-- ==== Proof.KernelValue.lean ====
/-
  The blocked product's value at the ideal instance (floats are extended reals, every operation exact, a change of
  float format the identity).

  The kernel multiplies `A`, the `16384 × 4096` row-major flattening of the first argument, with the transpose of
  `W`, the `4096 × 4096` second argument, in blocks of `1024 × 1024` over a grid of `16 × 4 × 4` points `(i, j, k)`,
  the last coordinate running fastest: point number `t` has `i = t / 16`, `j = t / 4 % 4`, `k = t % 4`. At a point it
  reads block `(i, k)` of `A` and block `(j, k)` of `W`, and adds their product (contracting the second axis of
  both) to a scratch block that is reset to zero at `k = 0`; at `k = 3` the scratch is copied to block `(i, j)` of
  the output.

  So after point `t` the scratch entry `(p, q)` is the row-by-row product of row `1024 i + p` of `A` with row
  `1024 j + q` of `W` over the columns `d < 1024 (k + 1)` (`scratch_at`, by induction on the point: a point with
  `k = 0` starts from zero, any other continues the point before it, which has the same `i` and `j`). At `k = 3`
  that is all 4096 columns, so every block written back is a block of ONE array, `prod` (`flushed_eq`); the
  written blocks tile the output (`cover`); hence the output array ends at `prod` (`final`). Before the region the
  first argument is reshaped to `A`, after it the output is reshaped to `4 × 4096 × 4096`; both are the row-major
  re-indexing `(b, s) ↦ 4096 b + s` of the rows (`result_apply`).
-/
import proofs.«172653_j21577915695486_1_alg».proof.Proof.Pieces
import proofs.«172653_j21577915695486_1_alg».proof.Proof.LibPartialDot
import proofs.«172653_j21577915695486_1_alg».proof.Proof.LibTransposedMatmul
import Idealize.ShloMosaic.Lib.Pipeline.Value
import Idealize.ShloMosaic.Lib.ValueIdx
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Cert.Accum
open Idealize.ShloMosaic.ValueIdx

variable (m : (ℓ : Loc nD τ sig) → Buf (Elt Ideal) ℓ) (ρ : Dev nD → PrngReg)

/-! ## The grid: which blocks point `t` touches -/

/-- Point `t` reads block `(t / 16, t % 4)` of `A` and block `(t / 4 % 4, t % 4)` of `W`, and its output block is
    `(t / 16, t / 4 % 4)`: the printed index maps, decided over the 256 points. -/
theorem idx_facts : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4)

theorem lt_N (t : Fin cfg0.N) : t.val < 256 := lt_of_lt_of_eq t.isLt (show cfg0.N = 256 from N_0)

/-! ## The arrays and the blocks, at their literal types -/

/-- `A`: the first argument as the region finds it, flattened to `16384 × 4096`. -/
abbrev xarr (c : Dev nD) : Vec Ideal S16384x4096 .f32 := V m c main_v0
/-- `W`: the second argument as the region finds it. -/
abbrev warr (c : Dev nD) : Vec Ideal S4096x4096 .f32 := V m c main_arg1
/-- The block of `A` at point `t`. -/
abbrev ablk (c : Dev nD) (t : Fin cfg0.N) : Vec Ideal S1024x1024 .f32 := iblk m c 0 t
/-- The block of `W` at point `t`. -/
abbrev bblk (c : Dev nD) (t : Fin cfg0.N) : Vec Ideal S1024x1024 .f32 := iblk m c 1 t

/-- Entry `(p, k)` of `A`'s block at point `t` is entry `(1024 (t / 16) + p, 1024 (t % 4) + k)` of `A`. -/
theorem ablk_apply (c : Dev nD) (t : Fin cfg0.N) (p k : Fin 1024) :
    ablk m c t (ix2 p k) = rd (R := 16384) (C := 4096) (xarr m c) (1024 * (t.val / 16) + p.val) (1024 * (t.val % 4) + k.val) := by
  have hN := lt_N t
  have hp := p.isLt
  have hk := k.isLt
  rw [rd_of_lt (R := 16384) (C := 4096) (xarr m c) (by omega) (by omega)]
  obtain ⟨e0, e1, -, -, -, -⟩ := idx_facts t
  unfold ablk iblk
  rw [View.read_apply]
  show V m c main_v0 _ = V m c main_v0 _
  congr 1
  funext a
  apply Fin.ext
  match a with
  | ⟨0, _⟩ => show win0_0.index t 0 * 1024 + 1 * p.val = 1024 * (t.val / 16) + p.val; rw [e0]; omega
  | ⟨1, _⟩ => show win0_0.index t 1 * 1024 + 1 * k.val = 1024 * (t.val % 4) + k.val; rw [e1]; omega

/-- Entry `(q, k)` of `W`'s block at point `t` is entry `(1024 (t / 4 % 4) + q, 1024 (t % 4) + k)` of `W`. -/
theorem bblk_apply (c : Dev nD) (t : Fin cfg0.N) (q k : Fin 1024) :
    bblk m c t (ix2 q k) = rd (R := 4096) (C := 4096) (warr m c) (1024 * (t.val / 4 % 4) + q.val) (1024 * (t.val % 4) + k.val) := by
  have hN := lt_N t
  have hq := q.isLt
  have hk := k.isLt
  rw [rd_of_lt (R := 4096) (C := 4096) (warr m c) (by omega) (by omega)]
  obtain ⟨-, -, e2, e3, -, -⟩ := idx_facts t
  unfold bblk iblk
  rw [View.read_apply]
  show V m c main_arg1 _ = V m c main_arg1 _
  congr 1
  funext a
  apply Fin.ext
  match a with
  | ⟨0, _⟩ => show win0_1.index t 0 * 1024 + 1 * q.val = 1024 * (t.val / 4 % 4) + q.val; rw [e2]; omega
  | ⟨1, _⟩ => show win0_1.index t 1 * 1024 + 1 * k.val = 1024 * (t.val % 4) + k.val; rw [e3]; omega

/-! ## One update, at an entry -/

/-- The zero block reads the real zero everywhere. -/
theorem zeroBlock_apply (j : S1024x1024.Idx) : (zeroBlock (F := Ideal)) j = 0 := by
  unfold zeroBlock k0_pay1
  simp only [shapeCast_self]
  exact Ideal.ofBits_zero_f32

/-- The update at entry `(p, q)`: the accumulator's entry plus the sum over `k` of `a[p, k] · b[q, k]` (the two
    narrowings to bf16 are the identity at the ideal instance; the product's own accumulator is the zero splat). -/
theorem update_apply (a b acc : Vec Ideal S1024x1024 .f32) (p q : Fin 1024) :
    update a b acc (ix2 p q) = acc (ix2 p q) + ∑ k : Fin 1024, a (ix2 p k) * b (ix2 q k) := by
  unfold update k0_pay2
  simp only [shapeCast_self]
  exact congrArg (acc (ix2 p q) + ·) (Cert.MatT.transposedRhs_matmul_apply 1024 1024 1024 none _ _ (ix2 p q))

/-! ## What the scratch and the output block hold after each point -/

/-- At a point that opens a run (`k = 0`) the scratch ends at the update of the zero block. -/
theorem snd_open (c : Dev nD) (t : Fin cfg0.N) (h0 : t.val % 4 = 0) :
    (outsAt0 m c t.val t.isLt).2 = update (ablk m c t) (bblk m c t) zeroBlock := by
  have h1 : ¬t.val % 4 = 3 := by omega
  rw [outsAt0_A m c t h0 h1]
  dsimp only
  exact scratch_open (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- At a middle point (`k = 1, 2`) it ends at the update of what the point before left. -/
theorem snd_mid (c : Dev nD) (t : Fin cfg0.N) (h0 : ¬t.val % 4 = 0) (h1 : ¬t.val % 4 = 3) :
    (outsAt0 m c t.val t.isLt).2
      = update (ablk m c t) (bblk m c t) (outsAt0 m c (t.val - 1) (Nat.lt_of_le_of_lt (Nat.sub_le _ _) t.isLt)).2 := by
  rw [outsAt0_B m c t h0 h1]
  dsimp only
  exact scratch_mid (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- At a closing point (`k = 3`) likewise, -/
theorem snd_close (c : Dev nD) (t : Fin cfg0.N) (h0 : ¬t.val % 4 = 0) (h1 : t.val % 4 = 3) :
    (outsAt0 m c t.val t.isLt).2
      = update (ablk m c t) (bblk m c t) (outsAt0 m c (t.val - 1) (Nat.lt_of_le_of_lt (Nat.sub_le _ _) t.isLt)).2 := by
  rw [outsAt0_C m c t h0 h1]
  dsimp only
  exact scratch_close (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and the output block there holds what the scratch holds. -/
theorem fst_close (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (out_close (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (scratch_close (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).symm

/-- One point's step on an entry: an accumulator entry that is the product over the columns before stretch `t % 4`,
    plus the point's block product, is the product over the columns up to the end of that stretch. -/
theorem point_step (c : Dev nD) (t : Fin cfg0.N) (p q : Fin 1024) (s : EReal)
    (hs : s = dotUpTo (R := 16384) (N := 4096) (C := 4096) (xarr m c) (warr m c) (1024 * (t.val % 4))
      (1024 * (t.val / 16) + p.val) (1024 * (t.val / 4 % 4) + q.val)) :
    s + ∑ k : Fin 1024, ablk m c t (ix2 p k) * bblk m c t (ix2 q k)
      = dotUpTo (R := 16384) (N := 4096) (C := 4096) (xarr m c) (warr m c) (1024 * (t.val % 4 + 1))
          (1024 * (t.val / 16) + p.val) (1024 * (t.val / 4 % 4) + q.val) :=
  dotUpTo_step (R := 16384) (N := 4096) (C := 4096) (xarr m c) (warr m c) 1024 (t.val % 4) _ _ s _ hs
    (fun d => by rw [ablk_apply, bblk_apply])

/-- THE ACCUMULATION. After point `n` the scratch entry `(p, q)` is the product of row `1024 (n / 16) + p` of `A`
    with row `1024 (n / 4 % 4) + q` of `W` over the columns `d < 1024 (n % 4 + 1)`: by induction on the point. -/
theorem scratch_eq (c : Dev nD) (n : ℕ) : ∀ (h : n < cfg0.N) (p q : Fin 1024),
    (outsAt0 m c n h).2 (ix2 p q)
      = dotUpTo (R := 16384) (N := 4096) (C := 4096) (xarr m c) (warr m c) (1024 * (n % 4 + 1))
          (1024 * (n / 16) + p.val) (1024 * (n / 4 % 4) + q.val) := by
  induction n with
  | zero =>
    intro h p q
    refine (congrFun (snd_open m c ⟨0, h⟩ rfl) (ix2 p q)).trans ?_
    refine (update_apply _ _ _ p q).trans ?_
    refine point_step m c ⟨0, h⟩ p q _ ?_
    rw [zeroBlock_apply]
    exact (dotUpTo_zero _ _ _ _).symm
  | succ n ih =>
    intro h p q
    have hN : n + 1 < 256 := lt_of_lt_of_eq h (show cfg0.N = 256 from N_0)
    by_cases h0 : (n + 1) % 4 = 0
    · refine (congrFun (snd_open m c ⟨n + 1, h⟩ h0) (ix2 p q)).trans ?_
      refine (update_apply _ _ _ p q).trans ?_
      refine point_step m c ⟨n + 1, h⟩ p q _ ?_
      rw [zeroBlock_apply]
      show (0 : EReal) = dotUpTo _ _ (1024 * ((n + 1) % 4)) _ _
      rw [h0]
      exact (dotUpTo_zero _ _ _ _).symm
    · have a1 : n % 4 + 1 = (n + 1) % 4 := by omega
      have a2 : n / 16 = (n + 1) / 16 := by omega
      have a3 : n / 4 % 4 = (n + 1) / 4 % 4 := by omega
      have hprev : (outsAt0 m c n (Nat.lt_of_succ_lt h)).2 (ix2 p q)
          = dotUpTo (R := 16384) (N := 4096) (C := 4096) (xarr m c) (warr m c) (1024 * ((n + 1) % 4))
              (1024 * ((n + 1) / 16) + p.val) (1024 * ((n + 1) / 4 % 4) + q.val) := by
        rw [ih (Nat.lt_of_succ_lt h) p q, a1, a2, a3]
      by_cases h1 : (n + 1) % 4 = 3
      · refine (congrFun (snd_close m c ⟨n + 1, h⟩ h0 h1) (ix2 p q)).trans ?_
        refine (update_apply _ _ _ p q).trans ?_
        exact point_step m c ⟨n + 1, h⟩ p q _ hprev
      · refine (congrFun (snd_mid m c ⟨n + 1, h⟩ h0 h1) (ix2 p q)).trans ?_
        refine (update_apply _ _ _ p q).trans ?_
        exact point_step m c ⟨n + 1, h⟩ p q _ hprev

/-- The same at any index of the block. -/
theorem scratch_at (c : Dev nD) (n : ℕ) (h : n < cfg0.N) (j : S1024x1024.Idx) :
    (outsAt0 m c n h).2 j
      = dotUpTo (R := 16384) (N := 4096) (C := 4096) (xarr m c) (warr m c) (1024 * (n % 4 + 1))
          (1024 * (n / 16) + (j 0).val) (1024 * (n / 4 % 4) + (j 1).val) := by
  exact (congrArg (outsAt0 m c n h).2 (eq_ix2 j)).trans (scratch_eq m c n h (j 0) (j 1))

end Cert.KernelIdeal.KValue

end
-- ==== Proof.KernelRun.lean ====
/-
  From the accumulated blocks to the result array, and the kernel's run read as a value.

  `prod` is the `16384 × 4096` array whose entry `(r, e)` is the row-by-row product of row `r` of `A` with row `e`
  of `W` over all 4096 columns. The points with `t % 4 = 3` are the ones that write a block back; there the
  accumulation has reached all the columns, so the block written is the block of `prod` (`flushed_eq`). Index
  `(r, e)` lies in the block of point `16 (r / 1024) + 4 (e / 1024) + 3` (`cover`), so the output array ends at
  `prod` (`final`). The reshape before the region makes row `4096 b + s` of `A` the row `(b, s)` of the first
  argument, the reshape after it makes entry `(b, s, e)` of the result the entry `(4096 b + s, e)` of `prod`: both
  keep the row-major position. Hence the result's entry `(b, s, e)` is the sum over `d` of `x[b, s, d] · w[e, d]`
  (`result_apply`).
-/
import proofs.«172653_j21577915695486_1_alg».proof.Proof.KernelValue

noncomputable section

open scoped BigOperators
open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Cert.Accum
open Idealize.ShloMosaic.ValueIdx

variable (m : (ℓ : Loc nD τ sig) → Buf (Elt Ideal) ℓ) (ρ : Dev nD → PrngReg)

/-- `A · Wᵀ`, entry by entry. -/
def prod (c : Dev nD) : Vec Ideal S16384x4096 .f32 := fun j =>
  dotUpTo (R := 16384) (N := 4096) (C := 4096) (xarr m c) (warr m c) 4096 (j 0).val (j 1).val

/-- What a closing point writes back is its block of `prod`. -/
theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  have hN := lt_N t
  obtain ⟨-, -, -, -, e4, e5⟩ := idx_facts t
  show (cfg0.win 2).cut (grid0.coords t) ((dats m 0 c).after 2 t) = _
  rw [after0_2, fst_close m c t h3]
  funext y
  rw [View.read_apply]
  show (outsAt0 m c t.val t.isLt).2 ((cfg0.win 2).xinj (grid0.coords t) y) = prod m c (((cfg0.win 2).blk t).view.emb y)
  rw [scratch_at m c t.val t.isLt]
  unfold prod
  have r0 : ((((cfg0.win 2).blk t).view.emb y) 0).val = 1024 * (t.val / 16) + (y 0).val := by
    show win0_2.index t 0 * 1024 + 1 * (y 0).val = _
    rw [e4]; omega
  have r1 : ((((cfg0.win 2).blk t).view.emb y) 1).val = 1024 * (t.val / 4 % 4) + (y 1).val := by
    show win0_2.index t 1 * 1024 + 1 * (y 1).val = _
    rw [e5]; omega
  rw [r0, r1, h3]

/-- Every index of the output array is in the block of some closing point. -/
theorem cover (i : S16384x4096.Idx) :
    ∃ t : Fin cfg0.N, (cfg0.win 2).flush t = true ∧ i ∈ ((cfg0.win 2).blk t).view.set := by
  have h0 : (i 0).val < 16384 := (i 0).isLt
  have h1 : (i 1).val < 4096 := (i 1).isLt
  have hlt : 16 * ((i 0).val / 1024) + 4 * ((i 1).val / 1024) + 3 < cfg0.N := by
    rw [show cfg0.N = 256 from N_0]; omega
  obtain ⟨t, ht⟩ : ∃ t : Fin cfg0.N, t.val = 16 * ((i 0).val / 1024) + 4 * ((i 1).val / 1024) + 3 := ⟨⟨_, hlt⟩, rfl⟩
  obtain ⟨-, -, -, -, e4, e5⟩ := idx_facts t
  refine ⟨t, (flush0_2 t).mpr (by omega), ?_⟩
  show i ∈ ((View.whole main_v1).slice (win0_2.rect t)).set
  rw [View.set_slice_whole, Rect.mem_set_unit]
  intro a
  match a with
  | ⟨0, _⟩ =>
    show win0_2.index t (0 : Fin 2) * 1024 ≤ (i 0).val ∧ (i 0).val < win0_2.index t (0 : Fin 2) * 1024 + 1024
    rw [e4]; omega
  | ⟨1, _⟩ =>
    show win0_2.index t (1 : Fin 2) * 1024 ≤ (i 1).val ∧ (i 1).val < win0_2.index t (1 : Fin 2) * 1024 + 1024
    rw [e5]; omega

/-- The output array after the run. -/
theorem final (c : Dev nD) : (dats m 0 c).arrAt 2 cfg0.N = prod m c :=
  (dats m 0 c).arrAt_eq_of_cover 2 (prod m c) (flushed_eq m c) cover

/-! ## The reshapes around the region -/

/-- The first argument, `4 × 4096 × 4096`. -/
abbrev xarg (c : Dev nD) : Vec Ideal S4x4096x4096 .f32 := m ((c : Thread nD τ).loc main_arg0)
/-- The second argument, `4096 × 4096`. -/
abbrev warg (c : Dev nD) : Vec Ideal S4096x4096 .f32 := m ((c : Thread nD τ).loc main_arg1)

/-- `A` is the first argument, reshaped. -/
theorem xarr_eq (c : Dev nD) :
    xarr m c = shapeCast S16384x4096 (xarg m c) shapeCasts_S4x4096x4096_S16384x4096 := by
  show StableHlo.after hostOps0 (fun b => m (c, b)) (Proc.devRef .tc main_v0) = _
  after_results
  rfl

/-- `W` is the second argument. -/
theorem warr_eq (c : Dev nD) : warr m c = warg m c := V_main_arg1 m c

/-- The result: `prod`, reshaped to `4 × 4096 × 4096`. -/
def result (c : Dev nD) : Vec Ideal S4x4096x4096 .f32 :=
  shapeCast S4x4096x4096 (prod m c) shapeCasts_S16384x4096_S4x4096x4096

/-- The operation after the region leaves the result buffer at `result`. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  exact congrArg (fun x => shapeCast S4x4096x4096 x shapeCasts_S16384x4096_S4x4096x4096)
    ((Pipeline.withArrays_arr spec0 launch0.win.arr_inj c _ _ 2).trans (final m c))

/-- THE RUN, read: the result buffer at `result`, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

/-! ## The result at an index -/

/-- Entry `(b, s, e)` of the result is the sum over `d` of `x[b, s, d] · w[e, d]`. -/
theorem result_apply (c : Dev nD) (b : Fin 4) (s e : Fin 4096) :
    result m c (ix3 b s e)
      = ∑ d : Fin 4096, xarg m c (ix3 b s d) * warg m c (ix2 e d) := by
  have hb := b.isLt
  have hs := s.isLt
  have hr : 4096 * b.val + s.val < 16384 := by omega
  unfold result
  rw [shapeCast_apply (prod m c) shapeCasts_S16384x4096_S4x4096x4096 (ix3 b s e) (ix2 ⟨4096 * b.val + s.val, hr⟩ e)
    (by rw [Shape.rowMajor_val_two, Shape.rowMajor_val_three]
        show (4096 * b.val + s.val) * 4096 + e.val = (b.val * 4096 + s.val) * 4096 + e.val
        omega)]
  unfold prod
  show dotUpTo (R := 16384) (N := 4096) (C := 4096) (xarr m c) (warr m c) 4096 (4096 * b.val + s.val) e.val = _
  rw [dotUpTo_full (R := 16384) (N := 4096) (C := 4096) (xarr m c) (warr m c) hr e.isLt]
  refine Finset.sum_congr rfl fun d _ => ?_
  rw [xarr_eq, warr_eq]
  rw [shapeCast_apply (xarg m c) shapeCasts_S4x4096x4096_S16384x4096
    (ix2 ⟨4096 * b.val + s.val, hr⟩ d) (ix3 b s d)
    (by rw [Shape.rowMajor_val_two, Shape.rowMajor_val_three]
        show (b.val * 4096 + s.val) * 4096 + d.val = (4096 * b.val + s.val) * 4096 + d.val
        omega)]

end Cert.KernelIdeal.KValue

end
-- ==== Proof.RefValue.lean ====
/-
  The reference at the ideal instance: one contraction of the last axis of `x` (`4 × 4096 × 4096`) with the last axis
  of `w` (`4096 × 4096`). Its entry `(b, s, e)` is the sum over `d` of `x[b, s, d] · w[e, d]`: the left operand is
  read at the result's first two coordinates and the contracted one, the right operand at the result's last
  coordinate and the contracted one.
-/
import proofs.«172653_j21577915695486_1_alg».proof.Proof.Gen.ReferenceIdeal.Read
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.ValueIdx

/-- The contraction read at `(b, s, e)`. -/
theorem ref_apply (x : Vec Ideal S4x4096x4096 .f32) (w : Vec Ideal S4096x4096 .f32) (b : Fin 4) (s e : Fin 4096) :
    val_main_v0 (F := Ideal) x w (ix3 b s e) = ∑ d : Fin 4096, x (ix3 b s d) * w (ix2 e d) := by
  rw [val_main_v0_apply]
  refine Finset.sum_congr rfl fun d _ => ?_
  have el : lidx_main_v0 (ix3 b s e) d = ix3 b s d :=
    funext fun a => Fin.ext (by match a with | ⟨0, _⟩ => rfl | ⟨1, _⟩ => rfl | ⟨2, _⟩ => rfl)
  have er : ridx_main_v0 (ix3 b s e) d = ix2 e d :=
    funext fun a => Fin.ext (by match a with | ⟨0, _⟩ => rfl | ⟨1, _⟩ => rfl)
  rw [el, er]

end Cert.ReferenceIdeal.RefValue

end
-- ==== Proof.lean ====
/-
  The certificate of a blocked matrix product against one contraction.

  The kernel flattens `x` (`4 × 4096 × 4096`) to `A` (`16384 × 4096`), computes `A · Wᵀ` for `W` the `4096 × 4096`
  second argument in `1024 × 1024` blocks — the contracted axis cut in four stretches whose block products are added
  into a scratch block that starts at zero —, and reshapes the result back. The reference contracts the last axis
  of `x` with the last axis of `W` in one operation. Over the extended reals the two agree entry by entry: a sum over
  4096 columns is the sum of its four stretches of 1024 taken in order, starting from zero (addition of extended
  reals is associative and commutative, so no input need be finite), the narrowing of the blocks to bf16 is the
  identity at the ideal instance, and both reshapes keep the row-major position. The ideal pass rewrote nothing, so
  the idealized kernel is the kernel's own text and that conjunct is `True`. The three frames are the generated frame
  runs (the reference's is its generated run with the result dropped).
-/
import proofs.«172653_j21577915695486_1_alg».proof.Defs
import proofs.«172653_j21577915695486_1_alg».proof.Proof.Gen.Kernel
import proofs.«172653_j21577915695486_1_alg».proof.Proof.Gen.Kernel.Frame
import proofs.«172653_j21577915695486_1_alg».proof.Proof.Gen.KernelIdeal
import proofs.«172653_j21577915695486_1_alg».proof.Proof.Gen.KernelIdeal.Frame
import proofs.«172653_j21577915695486_1_alg».proof.Proof.Gen.ReferenceIdeal
import proofs.«172653_j21577915695486_1_alg».proof.Proof.Gen.ReferenceIdeal.Run
import proofs.«172653_j21577915695486_1_alg».proof.Proof.Gen.Pre_finite_inputs
import proofs.«172653_j21577915695486_1_alg».proof.Proof.KernelRun
import proofs.«172653_j21577915695486_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with entry `(b, s, e)` of the result at the sum over `d` of `x[b, s, d] · w[e, d]`, of
    arguments that agree. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  funext i
  obtain ⟨b, s, e, rfl⟩ : ∃ (b : Fin 4) (s e : Fin 4096), i = ix3 b s e := ⟨i 0, i 1, i 2, eq_ix3 i⟩
  exact (Cert.ReferenceIdeal.RefValue.ref_apply _ _ b s e).trans (Cert.KernelIdeal.KValue.result_apply m c b s e).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
